-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 25
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeUpdate.lean ====
/-
  The node update of a weighted graph convolution with a self loop, as one function on the extended reals.
  With `agg` the edge-weighted neighbour sums (one row per node), `feat` the node features, `Wn` and `Ws` the
  neighbour and self weights and `b` the bias, node `n`'s output in column `j` is

      (∑ k, agg[n, k] · Wn[k, j] + b[j]) + ∑ k, feat[n, k] · Ws[k, j].

  Both programs compute exactly this, in this order of the two additions: the host as two `dot_general`s and two
  adds over whole arrays, the kernel as two matrix products into zero accumulators per block of 5000 rows. Sums of
  products of extended reals need no finiteness to be well defined, and no law beyond reading each matrix product as
  its sum is used, so the inputs' finiteness is never opened.
-/
import Idealize.ShloMosaic.PureOps.Ideal
import Idealize.ShloMosaic.Lib.ValueIdx

noncomputable section

open Idealize.ShloMosaic Idealize.ShloMosaic.ValueIdx

namespace Cert.GraphConv

/-- Node-major arrays: 100000 nodes, 128 channels. -/
abbrev SNode : Shape := ⟨2, ![100000, 128]⟩
/-- A weight matrix, input channel by output channel. -/
abbrev SWeight : Shape := ⟨2, ![128, 128]⟩
/-- The bias, one entry per output channel. -/
abbrev SBias : Shape := ⟨1, ![128]⟩

/-- Output channel `j` of node `n`: the neighbour transform plus the bias, then plus the self transform. -/
def updateAt (agg feat : SNode.Idx → EReal) (Wn Ws : SWeight.Idx → EReal) (b : SBias.Idx → EReal)
    (n : Fin 100000) (j : Fin 128) : EReal :=
  ((∑ k : Fin 128, agg (ix2 n k) * Wn (ix2 k j)) + b (ix1 j)) + ∑ k : Fin 128, feat (ix2 n k) * Ws (ix2 k j)

/-- The whole output array. -/
def update (agg feat : SNode.Idx → EReal) (Wn Ws : SWeight.Idx → EReal) (b : SBias.Idx → EReal) :
    SNode.Idx → EReal :=
  fun i => updateAt agg feat Wn Ws b (i 0) (i 1)

theorem update_apply (agg feat : SNode.Idx → EReal) (Wn Ws : SWeight.Idx → EReal) (b : SBias.Idx → EReal)
    (n : Fin 100000) (j : Fin 128) :
    update agg feat Wn Ws b (ix2 n j) = updateAt agg feat Wn Ws b n j := rfl

end Cert.GraphConv

end
-- ==== Proof.BlockBody.lean ====
/-
  What the kernel body stores for one block of 5000 nodes, read at a row `p` and a column `j`.
  The body narrows its four matrix operands to bf16 (the identity on extended reals), multiplies the block of
  neighbour sums by the neighbour weights and the block of features by the self weights, each into a zero
  accumulator, and adds the first product, the bias row broadcast down the block, and the second product, in that
  order. A matrix product into zero is the sum over the 128 channels of the operands' products.
-/
import proofs.«128141_j26560077758774_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.BlockBody

open Cert.KernelIdeal Cert.KernelIdeal.Gen

/-! ## The block product's operand indices, axis by axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `p` and column `j`: the sum over the channels. -/
theorem product_apply {φ₁ φ₂ : FTy} (l : FVec Ideal S5000x128 φ₁) (r : FVec Ideal S128x128 φ₂) (p : Fin 5000) (j : Fin 128) :
    matmul dot_S5000x128_S128x128_S5000x128_1_0_0_1_n_n none l r (constant S5000x128 .f32 0x00000000#32) (ix2 p j)
      = ∑ k : Fin 128, l (ix2 p k) * r (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- The stored value at `(p, j)`: neighbour product plus bias, plus self product. -/
theorem stored_apply (a f : Vec Ideal S5000x128 .f32) (wn ws : Vec Ideal S128x128 .f32) (b : Vec Ideal S1x128 .f32)
    (p : Fin 5000) (j : Fin 128) :
    k0_pay1 (F := Ideal) a f wn ws b (ix2 p j)
      = ((∑ k : Fin 128, a (ix2 p k) * wn (ix2 k j)) + b (ix2 (0 : Fin 1) j)) + ∑ k : Fin 128, f (ix2 p k) * ws (ix2 k j) := by
  unfold k0_pay1
  rw [addf_apply, addf_apply, product_apply, product_apply, broadcastTo_1b_ab_apply]
  simp only [truncf_apply, shapeCast_self]

/-- The same at an index of the block given as a whole, its two coordinates read off. -/
theorem stored_at (a f : Vec Ideal S5000x128 .f32) (wn ws : Vec Ideal S128x128 .f32) (b : Vec Ideal S1x128 .f32)
    (y : S5000x128.Idx) :
    k0_pay1 (F := Ideal) a f wn ws b y
      = ((∑ k : Fin 128, a (ix2 (y 0) k) * wn (ix2 k (y 1))) + b (ix2 (0 : Fin 1) (y 1)))
          + ∑ k : Fin 128, f (ix2 (y 0) k) * ws (ix2 k (y 1)) := by
  exact (congrArg (k0_pay1 (F := Ideal) a f wn ws b) (eq_ix2 y)).trans (stored_apply a f wn ws b (y 0) (y 1))

end Cert.KernelIdeal.BlockBody

end
-- ==== Proof.KernelUpdate.lean ====
/-
  The kernel's output array after the run is the node update of the arrays the region finds.
  Grid point `t` of the 20 stages rows `5000 t … 5000 t + 4999` of the neighbour sums and of the features, the two
  whole weight matrices and the bias row, and writes back the same rows of the output; the blocks tile the 100000
  rows, the point that covers row `r` being `r / 5000`.
-/
import proofs.«128141_j26560077758774_1_alg».proof.Proof.Gen.KernelIdeal.Value
import proofs.«128141_j26560077758774_1_alg».proof.Proof.BlockBody
import proofs.«128141_j26560077758774_1_alg».proof.Proof.NodeUpdate
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Blocks

open Cert.KernelIdeal Cert.KernelIdeal.Gen Cert.GraphConv

variable (m : (ℓ : Loc nD τ sig) → Buf (Elt Ideal) ℓ) (ρ : Dev nD → PrngReg)

theorem hz : (![0, 0] : Fin 2 → Nat) = fun _ => 0 := funext fun a => by fin_cases a <;> rfl

/-- The neighbour sums as the region finds them: what the host's scatter-add left. -/
abbrev aggIn (c : Dev nD) : SNode.Idx → EReal := V m c main_v12

/-- The output array's contents after the run. -/
def result (c : Dev nD) : SNode.Idx → EReal :=
  update (aggIn m c) (m ((c : Thread nD τ).loc main_arg0)) (m ((c : Thread nD τ).loc main_arg4))
    (m ((c : Thread nD τ).loc main_arg5)) (m ((c : Thread nD τ).loc main_arg6))

/-- The printed index maps over the grid: the row-blocked windows sit at block `t`, the resident ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The bias row the region finds is the bias argument with a leading unit axis. -/
theorem bias_row (c : Dev nD) :
    (V m c main_v13 : S1x128.Idx → EReal) = shapeCast S1x128 (m ((c : Thread nD τ).loc main_arg6)) shapeCasts_S128_S1x128 := by
  dsimp only [Gen.V, Gen.hostOps0]
  after_results
  rfl

/-! ## Reading an array through a point's block

  Each lemma is stated for ANY contents `X` of the window's array: which rows a block holds depends on the index maps
  only, never on what the array holds. -/

/-- Point `t`'s block of window 0's array is rows `5000 t …` of it. -/
theorem read_block0 (c : Dev nD) (t : Fin cfg0.N) (X : S100000x128.Idx → EReal) (p : Fin 5000) (k : Fin 128) (n : Fin 100000)
    (hn : n.val = 5000 * t.val + p.val) :
    (((cfg0.win 0).blk t).view.read (Elt Ideal) X : Vec Ideal S5000x128 .f32) (ix2 p k) = X (ix2 n k) := by
  obtain ⟨e0, e1, -⟩ := idx_facts t
  show X (((cfg0.win 0).blk t).view.emb (ix2 p k)) = X (ix2 n k)
  refine congrArg X (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- Point `t`'s block of window 1's array is the same rows of it. -/
theorem read_block1 (c : Dev nD) (t : Fin cfg0.N) (X : S100000x128.Idx → EReal) (p : Fin 5000) (k : Fin 128) (n : Fin 100000)
    (hn : n.val = 5000 * t.val + p.val) :
    (((cfg0.win 1).blk t).view.read (Elt Ideal) X : Vec Ideal S5000x128 .f32) (ix2 p k) = X (ix2 n k) := by
  obtain ⟨-, -, e0, e1, -⟩ := idx_facts t
  show X (((cfg0.win 1).blk t).view.emb (ix2 p k)) = X (ix2 n k)
  refine congrArg X (funext fun a => Fin.ext ?_)
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

/-- Every point's block of window 2's array is the whole matrix. -/
theorem read_block2 (c : Dev nD) (t : Fin cfg0.N) (X : S128x128.Idx → EReal) (k j : Fin 128) :
    (((cfg0.win 2).blk t).view.read (Elt Ideal) X : Vec Ideal S128x128 .f32) (ix2 k j) = X (ix2 k j) := by
  obtain ⟨-, -, -, -, e0, e1, -⟩ := idx_facts t
  show X (((cfg0.win 2).blk t).view.emb (ix2 k j)) = X (ix2 k j)
  refine congrArg X (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- Every point's block of window 3's array is the whole matrix. -/
theorem read_block3 (c : Dev nD) (t : Fin cfg0.N) (X : S128x128.Idx → EReal) (k j : Fin 128) :
    (((cfg0.win 3).blk t).view.read (Elt Ideal) X : Vec Ideal S128x128 .f32) (ix2 k j) = X (ix2 k j) := by
  obtain ⟨-, -, -, -, -, -, e0, e1, -⟩ := idx_facts t
  show X (((cfg0.win 3).blk t).view.emb (ix2 k j)) = X (ix2 k j)
  refine congrArg X (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- Every point's block of window 4's array is its one row. -/
theorem read_block4 (c : Dev nD) (t : Fin cfg0.N) (X : S1x128.Idx → EReal) (j : Fin 128) :
    (((cfg0.win 4).blk t).view.read (Elt Ideal) X : Vec Ideal S1x128 .f32) (ix2 (0 : Fin 1) j) = X (ix2 (0 : Fin 1) j) := by
  obtain ⟨-, -, -, -, -, -, -, -, e0, e1, -⟩ := idx_facts t
  show X (((cfg0.win 4).blk t).view.emb (ix2 (0 : Fin 1) j)) = X (ix2 (0 : Fin 1) j)
  refine congrArg X (funext fun a => Fin.ext ?_)
  match a with
  | ⟨0, _⟩ => show win0_4.index t (0 : Fin 2) * 1 + 1 * 0 = 0; rw [e0]
  | ⟨1, _⟩ => show win0_4.index t (1 : Fin 2) * 128 + 1 * j.val = j.val; rw [e1]; omega

/-- What the output window's block of ANY array `R` is: a block `P` agreeing with `R` on rows `5000 t …`, cut to the
    window, is `R` read through point `t`'s block. -/
theorem write_block5 (c : Dev nD) (t : Fin cfg0.N) (R : S100000x128.Idx → EReal) (P : Vec Ideal S5000x128 .f32)
    (h : ∀ (y : S5000x128.Idx) (n : Fin 100000), n.val = 5000 * t.val + (y 0).val → P y = R (ix2 n (y 1))) :
    (cfg0.win 5).cut (grid0.coords t) P = ((cfg0.win 5).blk t).view.read (Elt Ideal) R := by
  obtain ⟨-, -, -, -, -, -, -, -, -, -, e0, e1⟩ := idx_facts t
  have ht : t.val < 20 := lt_of_lt_of_eq t.isLt N_0
  funext y
  have hy0 : (y 0).val < 5000 := (y 0).isLt
  have hy1 : (y 1).val < 128 := (y 1).isLt
  show P y = R (((cfg0.win 5).blk t).view.emb y)
  refine (h y ⟨5000 * t.val + (y 0).val, by omega⟩ rfl).trans ?_
  refine congrArg R (funext fun a => Fin.ext ?_)
  match a with
  | ⟨0, _⟩ => show 5000 * t.val + (y 0).val = win0_5.index t (0 : Fin 2) * 5000 + 1 * (y 0).val; rw [e0]; omega
  | ⟨1, _⟩ => show (y 1).val = win0_5.index t (1 : Fin 2) * 128 + 1 * (y 1).val; rw [e1]; omega

/-! ## The staged blocks of the arrays the region finds -/

/-- Point `t`'s block of the neighbour sums is rows `5000 t …` of them. -/
theorem agg_block (c : Dev nD) (t : Fin cfg0.N) (p : Fin 5000) (k : Fin 128) (n : Fin 100000)
    (hn : n.val = 5000 * t.val + p.val) :
    (iblk m c 0 t : Vec Ideal S5000x128 .f32) (ix2 p k) = aggIn m c (ix2 n k) := by
  unfold iblk
  exact read_block0 c t (V m c (Pipeline.arrRef spec0 0)) p k n hn

/-- Point `t`'s block of the features is the same rows of the feature argument. -/
theorem feat_block (c : Dev nD) (t : Fin cfg0.N) (p : Fin 5000) (k : Fin 128) (n : Fin 100000)
    (hn : n.val = 5000 * t.val + p.val) :
    (iblk m c 1 t : Vec Ideal S5000x128 .f32) (ix2 p k)
      = (m ((c : Thread nD τ).loc main_arg0) : SNode.Idx → EReal) (ix2 n k) := by
  unfold iblk
  refine (read_block1 c t (V m c (Pipeline.arrRef spec0 1)) p k n hn).trans ?_
  exact congrFun (V_main_arg0 m c) (ix2 n k)

/-- Every point stages the whole neighbour weight matrix. -/
theorem wn_block (c : Dev nD) (t : Fin cfg0.N) (k j : Fin 128) :
    (iblk m c 2 t : Vec Ideal S128x128 .f32) (ix2 k j)
      = (m ((c : Thread nD τ).loc main_arg4) : SWeight.Idx → EReal) (ix2 k j) := by
  unfold iblk
  refine (read_block2 c t (V m c (Pipeline.arrRef spec0 2)) k j).trans ?_
  exact congrFun (V_main_arg4 m c) (ix2 k j)

/-- Every point stages the whole self weight matrix. -/
theorem ws_block (c : Dev nD) (t : Fin cfg0.N) (k j : Fin 128) :
    (iblk m c 3 t : Vec Ideal S128x128 .f32) (ix2 k j)
      = (m ((c : Thread nD τ).loc main_arg5) : SWeight.Idx → EReal) (ix2 k j) := by
  unfold iblk
  refine (read_block3 c t (V m c (Pipeline.arrRef spec0 3)) k j).trans ?_
  exact congrFun (V_main_arg5 m c) (ix2 k j)

/-- Every point stages the bias row, whose entry in column `j` is the bias argument's entry `j`. -/
theorem bias_block (c : Dev nD) (t : Fin cfg0.N) (j : Fin 128) :
    (iblk m c 4 t : Vec Ideal S1x128 .f32) (ix2 (0 : Fin 1) j)
      = (m ((c : Thread nD τ).loc main_arg6) : SBias.Idx → EReal) (ix1 j) := by
  unfold iblk
  refine (read_block4 c t (V m c (Pipeline.arrRef spec0 4)) j).trans ?_
  refine (congrFun (bias_row m c) (ix2 (0 : Fin 1) j)).trans ?_
  exact shapeCast_a_1a_apply _ _ (0 : Fin 1) j

/-! ## What a point writes back, the cover, the array -/

/-- WHAT POINT `t` WRITES BACK is its block of `result`: at row `p` of the block and column `j` the body stored the
    node update of node `5000 t + p`, each staged block read as rows of its array. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S5000x128) hz, View.ld_unit_zero (S := S128x128) hz, View.ld_unit_zero (S := S1x128) hz]
  refine write_block5 c t (result m c) _ (fun y n hn => ?_)
  refine (BlockBody.stored_at (iblk m c 0 t) (iblk m c 1 t) (iblk m c 2 t) (iblk m c 3 t) (iblk m c 4 t) y).trans ?_
  unfold result
  refine Eq.trans ?_ (update_apply (aggIn m c) _ _ _ _ n (y 1)).symm
  unfold updateAt
  exact congrArg₂ (· + ·)
    (congrArg₂ (· + ·)
      (Finset.sum_congr rfl fun k _ => congrArg₂ (· * ·) (agg_block m c t (y 0) k n hn) (wn_block m c t k (y 1)))
      (bias_block m c t (y 1)))
    (Finset.sum_congr rfl fun k _ => congrArg₂ (· * ·) (feat_block m c t (y 0) k n hn) (ws_block m c t k (y 1)))

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v14).slice (win0_5.rect t)).set ↔ _
  rw [View.set_slice_whole, Rect.mem_set_unit]
  exact Iff.rfl

/-- Every row is in some point's block: row `r` in point `r / 5000`'s. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hq : (i 0).val / 5000 < cfg0.N := by rw [hN]; omega
  obtain ⟨-, -, -, -, -, -, -, -, -, -, e0, e1⟩ := idx_facts ⟨(i 0).val / 5000, hq⟩
  refine ⟨⟨(i 0).val / 5000, hq⟩, flush0_5 _, ?_⟩
  rw [mem_blk]
  intro a
  match a with
  | ⟨0, _⟩ =>
    show win0_5.index ⟨(i 0).val / 5000, hq⟩ (0 : Fin 2) * 5000 ≤ (i 0).val ∧ (i 0).val < win0_5.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hq⟩ (1 : Fin 2) * 128 ≤ (i 1).val ∧ (i 1).val < win0_5.index ⟨(i 0).val / 5000, hq⟩ (1 : Fin 2) * 128 + 128
    rw [e1]
    omega

/-- THE ARRAY after the run is `result`. -/
theorem final (c : Dev nD) : (dats m 0 c).arrAt 5 cfg0.N = result m c :=
  (dats m 0 c).arrAt_eq_of_cover 5 (result m c) (fun t _ => flushed_eq m c t) covered

/-- The run, read: the output array at `result`, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Blocks

end
-- ==== Proof.RefUpdate.lean ====
/-
  The reference's result is the node update of its own neighbour sums.
  Its last five host operations are two `dot_general`s contracting the channel axis, the bias broadcast along the
  nodes, and two additions; read at an index `(n, j)` through the generated stage lemmas they are
  `(∑ k, agg[n,k]·Wn[k,j] + b[j]) + ∑ k, feat[n,k]·Ws[k,j]`, with `agg` the scatter-add stage left unopened.
-/
import proofs.«128141_j26560077758774_1_alg».proof.Proof.Gen.ReferenceIdeal.Read
import proofs.«128141_j26560077758774_1_alg».proof.Proof.NodeUpdate

noncomputable section

open Idealize.ShloMosaic Idealize.ShloMosaic.ValueIdx

namespace Cert.ReferenceIdeal.RefUpdate

open Cert.ReferenceIdeal Cert.ReferenceIdeal.Read Cert.GraphConv

/-- The operand indices of both contractions at output `(n, j)` and channel `k` are `(n, k)` and `(k, j)`. -/
theorem lidx13_eq (i : S100000x128.Idx) (k : Fin 128) : lidx_main_v13 i k = ix2 (i 0) k :=
  funext fun a => Fin.ext (by match a with | ⟨0, _⟩ => rfl | ⟨1, _⟩ => rfl)
theorem ridx13_eq (i : S100000x128.Idx) (k : Fin 128) : ridx_main_v13 i k = ix2 k (i 1) :=
  funext fun a => Fin.ext (by match a with | ⟨0, _⟩ => rfl | ⟨1, _⟩ => rfl)
theorem lidx17_eq (i : S100000x128.Idx) (k : Fin 128) : lidx_main_v17 i k = ix2 (i 0) k :=
  funext fun a => Fin.ext (by match a with | ⟨0, _⟩ => rfl | ⟨1, _⟩ => rfl)
theorem ridx17_eq (i : S100000x128.Idx) (k : Fin 128) : ridx_main_v17 i k = ix2 k (i 1) :=
  funext fun a => Fin.ext (by match a with | ⟨0, _⟩ => rfl | ⟨1, _⟩ => rfl)
/-- The bias, broadcast to a row and then along the nodes, is read at the output's column. -/
theorem bias_idx_eq (i : S100000x128.Idx) : idx_main_v14 (idx_main_v15 i) = ix1 (i 1) :=
  funext fun a => Fin.ext (by match a with | ⟨0, _⟩ => rfl)

/-- The reference's result stage is `update` of its scatter-add stage and the arguments. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 x5 : (⟨S128x128, .f32⟩ : BufTy).Contents (Elt Ideal))
    (x6 : (⟨S128, .f32⟩ : BufTy).Contents (Elt Ideal)) :
    val_main_v18 (F := Ideal) x0 x1 x2 x3 x4 x5 x6
      = update (val_main_v12 (F := Ideal) x0 x1 x2 x3) x0 x4 x5 x6 := by
  funext i
  rw [val_main_v18_apply, val_main_v16_apply, val_main_v13_apply, val_main_v15_apply, val_main_v14_apply,
    val_main_v17_apply]
  simp only [lidx13_eq, ridx13_eq, lidx17_eq, ridx17_eq, bias_idx_eq, Ideal.addf_def]
  rfl

end Cert.ReferenceIdeal.RefUpdate

end
-- ==== Proof.SameSums.lean ====
/-
  Both programs build the neighbour sums by the same host operations: a wrap of negative source indices, a row gather
  of the features, a product with the edge weights broadcast along the channels, and a scatter-add into zeros at the
  destination indices. The kernel's program runs them before its one region; the reference's stage for the
  scatter-add is the same term, so on the same arguments the two arrays of neighbour sums are one array, whatever
  the indices are.
-/
import proofs.«128141_j26560077758774_1_alg».proof.Proof.Gen.KernelIdeal.Frame
import proofs.«128141_j26560077758774_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.Proof.SameSums

/-- The neighbour sums the kernel's region finds are the reference's scatter-add stage of the same arguments. -/
theorem agg_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v12 : Cert.ReferenceIdeal.S100000x128.Idx → EReal)
      = Cert.ReferenceIdeal.Read.val_main_v12 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  dsimp only [Cert.KernelIdeal.Gen.V, Cert.KernelIdeal.Gen.hostOps0]
  after_results
  rfl

end Cert.Proof.SameSums

end
-- ==== Proof.lean ====
/-
  Weighted graph convolution with a self loop, kernel against reference, over the extended reals.

  Both programs first build the edge-weighted neighbour sums on the host, by the same operations (a row gather of the
  features at the wrapped source indices, a product with the edge weights, a scatter-add at the destination indices):
  one array `agg`, whatever the index inputs are. The reference then computes `(agg · Wn + b) + feat · Ws` with two
  `dot_general`s and two additions over the whole arrays. The kernel tiles the 100000 nodes into 20 blocks of 5000 rows
  and, per block, narrows the operands to bf16 (the identity on extended reals), takes the two matrix products into zero
  accumulators, and adds product, bias row and product in the same order. Read at a node `n` and a channel `j` both are

      (∑ k, agg[n, k] · Wn[k, j] + b[j]) + ∑ k, feat[n, k] · Ws[k, j],

  the same term, so no algebraic law and no finiteness of the inputs is needed.

  The three frames are the generated ones (the reference's is its generated run with the result dropped); the
  idealization rewrote nothing, so `preserves` is trivial; `algebraic` puts the kernel's run, read block by block
  (KernelUpdate), beside the reference's run, read stage by stage (RefUpdate), over the one array of neighbour sums
  (SameSums).
-/
import proofs.«128141_j26560077758774_1_alg».proof.Defs
import proofs.«128141_j26560077758774_1_alg».proof.Proof.Gen.Kernel
import proofs.«128141_j26560077758774_1_alg».proof.Proof.Gen.Kernel.Skeleton
import proofs.«128141_j26560077758774_1_alg».proof.Proof.Gen.Kernel.Launch
import proofs.«128141_j26560077758774_1_alg».proof.Proof.Gen.Kernel.Points
import proofs.«128141_j26560077758774_1_alg».proof.Proof.Gen.Kernel.Frame
import proofs.«128141_j26560077758774_1_alg».proof.Proof.Gen.KernelIdeal
import proofs.«128141_j26560077758774_1_alg».proof.Proof.Gen.KernelIdeal.Skeleton
import proofs.«128141_j26560077758774_1_alg».proof.Proof.Gen.KernelIdeal.Launch
import proofs.«128141_j26560077758774_1_alg».proof.Proof.Gen.KernelIdeal.Points
import proofs.«128141_j26560077758774_1_alg».proof.Proof.Gen.KernelIdeal.Frame
import proofs.«128141_j26560077758774_1_alg».proof.Proof.Gen.ReferenceIdeal
import proofs.«128141_j26560077758774_1_alg».proof.Proof.Gen.Pre_finite_inputs
import proofs.«128141_j26560077758774_1_alg».proof.Proof.Gen.KernelIdeal.Value
import proofs.«128141_j26560077758774_1_alg».proof.Proof.Gen.ReferenceIdeal.Run
import proofs.«128141_j26560077758774_1_alg».proof.Proof.Gen.ReferenceIdeal.Read
import proofs.«128141_j26560077758774_1_alg».proof.Proof.NodeUpdate
import proofs.«128141_j26560077758774_1_alg».proof.Proof.BlockBody
import proofs.«128141_j26560077758774_1_alg».proof.Proof.KernelUpdate
import proofs.«128141_j26560077758774_1_alg».proof.Proof.RefUpdate
import proofs.«128141_j26560077758774_1_alg».proof.Proof.SameSums
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the output at the node update of the one array of neighbour sums and the arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _ _ _ _).trans ?_
  refine (Cert.ReferenceIdeal.RefUpdate.result_eq _ _ _ _ _ _ _).trans ?_
  obtain ⟨h0, h1, h2, h3, h4, h5, h6⟩ := hagree c
  rw [h0, h1, h2, h3, h4, h5, h6, ← Cert.Proof.SameSums.agg_eq m c]
  unfold Cert.KernelIdeal.Blocks.result
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
